-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg6
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x256 .f32) (main_arg1 : IVec S1600000 32) (main_arg2 : IVec S1600000 32) (main_arg3 : FVec F S256x128 .f32) (main_arg4 : FVec F S128 .f32) (main_arg5 : FVec F S128x40 .f32) (main_arg6 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg5
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg6 main_v13 main_v16
-- ==== Kernel.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S1x40 : Shape := ⟨2, ![1, 40]⟩
abbrev S100000x128 : Shape := ⟨2, ![100000, 128]⟩
abbrev S4000x256 : Shape := ⟨2, ![4000, 256]⟩
abbrev S4000x1 : Shape := ⟨2, ![4000, 1]⟩
abbrev S4000x128 : Shape := ⟨2, ![4000, 128]⟩
abbrev S1600000x128 : Shape := ⟨2, ![1600000, 128]⟩
abbrev S100000x40 : Shape := ⟨2, ![100000, 40]⟩
abbrev S4000x40 : Shape := ⟨2, ![4000, 40]⟩
abbrev S1600000x40 : Shape := ⟨2, ![1600000, 40]⟩

abbrev nBuf : Space → Nat
  | .hbm => 60
  | .vmem => 24
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S256x128, .f32⟩
  | .hbm, ⟨4, _⟩ => ⟨S128, .f32⟩
  | .hbm, ⟨5, _⟩ => ⟨S128x40, .f32⟩
  | .hbm, ⟨6, _⟩ => ⟨S40, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x1, .f32⟩
  | .hbm, ⟨29, _⟩ => ⟨S1x128, .f32⟩
  | .hbm, ⟨30, _⟩ => ⟨S1x40, .f32⟩
  | .hbm, ⟨31, _⟩ => ⟨S100000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S100000x40, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x40, .f32⟩
  | .hbm, ⟨55, _⟩ => ⟨S_, .f32⟩
  | .hbm, ⟨56, _⟩ => ⟨S100000x40, .f32⟩
  | .hbm, ⟨57, _⟩ => ⟨S1600000x1, .i32⟩
  | .hbm, ⟨58, _⟩ => ⟨S100000x40, .f32⟩
  | .hbm, ⟨59, _⟩ => ⟨S100000x40, .f32⟩
  | .local _ .vmem, ⟨0, _⟩ => ⟨S4000x256, .f32⟩
  | .local _ .vmem, ⟨1, _⟩ => ⟨S4000x256, .f32⟩
  | .local _ .vmem, ⟨2, _⟩ => ⟨S256x128, .f32⟩
  | .local _ .vmem, ⟨3, _⟩ => ⟨S4000x1, .f32⟩
  | .local _ .vmem, ⟨4, _⟩ => ⟨S4000x1, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x1, .f32⟩
  | .local _ .vmem, ⟨10, _⟩ => ⟨S4000x1, .f32⟩
  | .local _ .vmem, ⟨11, _⟩ => ⟨S1x128, .f32⟩
  | .local _ .vmem, ⟨12, _⟩ => ⟨S128x40, .f32⟩
  | .local _ .vmem, ⟨13, _⟩ => ⟨S4000x1, .f32⟩
  | .local _ .vmem, ⟨14, _⟩ => ⟨S4000x1, .f32⟩
  | .local _ .vmem, ⟨15, _⟩ => ⟨S4000x40, .f32⟩
  | .local _ .vmem, ⟨16, _⟩ => ⟨S4000x40, .f32⟩
  | .local _ .vmem, ⟨17, _⟩ => ⟨S4000x40, .f32⟩
  | .local _ .vmem, ⟨18, _⟩ => ⟨S4000x40, .f32⟩
  | .local _ .vmem, ⟨19, _⟩ => ⟨S4000x1, .f32⟩
  | .local _ .vmem, ⟨20, _⟩ => ⟨S4000x1, .f32⟩
  | .local _ .vmem, ⟨21, _⟩ => ⟨S1x40, .f32⟩
  | .local _ .vmem, ⟨22, _⟩ => ⟨S4000x40, .f32⟩
  | .local _ .vmem, ⟨23, _⟩ => ⟨S4000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S128_S1x128 : S128.ShapeCasts S1x128
  shapeCasts_S40_S1x40 : S40.ShapeCasts S1x40
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S4000x128_S4000x128_0_0 : ∀ a, (![0, 0] : Fin 2 → Nat) a + S4000x128.size a ≤ S4000x128.size a
  h_S4000x128 : 0 < S4000x128.numel
  bcast_S_S100000x128 : S_.BroadcastsInDim S100000x128 (![] : Fin 0 → Fin S100000x128.rank)
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x40_S128x40_0_0 : ∀ a, (![0, 0] : Fin 2 → Nat) a + S128x40.size a ≤ S128x40.size a
  h_S128x40 : 0 < S128x40.numel
  broadcasts_S4000x1_S4000x40 : S4000x1.Broadcasts S4000x40
  inb_S4000x40_S4000x40_0_0 : ∀ a, (![0, 0] : Fin 2 → Nat) a + S4000x40.size a ≤ S4000x40.size a
  h_S4000x40 : 0 < S4000x40.numel
  bcast_S_S100000x40 : S_.BroadcastsInDim S100000x40 (![] : Fin 0 → Fin S100000x40.rank)
  shapeCasts_S4000x40_S4000x40 : S4000x40.ShapeCasts S4000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  scatter_S100000_S1600000x1_S1600000_n_0_0_1_wf : ScatterDims.WF S100000 S1600000x1 S1600000 [] [0] [0] 1
  dot_S4000x256_S256x128_S4000x128_1_0_0_1_n_n_wf : DotDims.WF S4000x256 S256x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x40_S4000x40_1_0_0_1_n_n_wf : DotDims.WF S4000x128 S128x40 S4000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x40.size a ≤ S128x40.size a
  hwx1_3 : ∀ i : grid1.Coords, EltTy.bits .f32 = 32 ∨ (Rect.block (s := S128x40) S128x40.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x1.size a ≤ S100000x1.size a
  hwx1_4 : ∀ i : grid1.Coords, EltTy.bits .f32 = 32 ∨ (Rect.block (s := S100000x1) S4000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x40.size a ≤ S100000x40.size a
  hwx1_5 : ∀ i : grid1.Coords, EltTy.bits .f32 = 32 ∨ (Rect.block (s := S100000x40) S4000x40.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x40.size a ≤ S100000x40.size a
  hwx2_0 : ∀ i : grid2.Coords, EltTy.bits .f32 = 32 ∨ (Rect.block (s := S100000x40) S4000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x40.size a ≤ S100000x40.size a
  hwx2_3 : ∀ i : grid2.Coords, EltTy.bits .f32 = 32 ∨ (Rect.block (s := S100000x40) S4000x40.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x40_S4000x40_1_0_0_1_n_n : DotDims S4000x128 S128x40 S4000x40 where
  lhsContracting := [1]
  rhsContracting := [0]
  lhsNonContracting := [0]
  rhsNonContracting := [1]
  lhsBatch := []
  rhsBatch := []
  wf := dot_S4000x128_S128x40_S4000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S4000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v26) S4000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v36) S4000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S4000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S100000x1 : Shape := ⟨2, ![100000, 1]⟩
abbrev S1600000x128 : Shape := ⟨2, ![1600000, 128]⟩
abbrev S1x128 : Shape := ⟨2, ![1, 128]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 76
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S256x128, .f32⟩
  | .hbm, ⟨4, _⟩ => ⟨S128, .f32⟩
  | .hbm, ⟨5, _⟩ => ⟨S128x40, .f32⟩
  | .hbm, ⟨6, _⟩ => ⟨S40, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x128, .f32⟩
  | .hbm, ⟨28, _⟩ => ⟨S100000x1, .f32⟩
  | .hbm, ⟨29, _⟩ => ⟨S100000x128, .f32⟩
  | .hbm, ⟨30, _⟩ => ⟨S100000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x1, .f32⟩
  | .hbm, ⟨45, _⟩ => ⟨S100000x128, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000x128, .f32⟩
  | .hbm, ⟨52, _⟩ => ⟨S100000x128, .f32⟩
  | .hbm, ⟨53, _⟩ => ⟨S100000x40, .f32⟩
  | .hbm, ⟨54, _⟩ => ⟨S100000x1, .f32⟩
  | .hbm, ⟨55, _⟩ => ⟨S100000x40, .f32⟩
  | .hbm, ⟨56, _⟩ => ⟨S100000x40, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x40, .f32⟩
  | .hbm, ⟨66, _⟩ => ⟨S_, .f32⟩
  | .hbm, ⟨67, _⟩ => ⟨S100000x40, .f32⟩
  | .hbm, ⟨68, _⟩ => ⟨S1600000x1, .i32⟩
  | .hbm, ⟨69, _⟩ => ⟨S100000x40, .f32⟩
  | .hbm, ⟨70, _⟩ => ⟨S100000x1, .f32⟩
  | .hbm, ⟨71, _⟩ => ⟨S100000x40, .f32⟩
  | .hbm, ⟨72, _⟩ => ⟨S100000x40, .f32⟩
  | .hbm, ⟨73, _⟩ => ⟨S1x40, .f32⟩
  | .hbm, ⟨74, _⟩ => ⟨S100000x40, .f32⟩
  | .hbm, ⟨75, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call2_cst : Ref sig .tc := ⟨.hbm, 50, rfl⟩
abbrev main_call2_v0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000x1_S100000x40_0_1 : S100000x1.BroadcastsInDim S100000x40 (![0, 1] : Fin 2 → Fin S100000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.Spec.lean ====
/-
  The three dense layers of a two-layer graph convolution, as functions of whole arrays, index by index, over the
  extended reals.

  With rows r (the nodes), `scaledProduct X W n` is the matrix product X·W with row r scaled by the column entry n[r,0];
  `affine A d b` scales row r of A by d[r,0] and adds the row vector b; `relu A` is the entrywise maximum with zero.
  Layer 1 before aggregation is `scaledProduct X W₁ nₛ`; after aggregation it is `relu (affine A₁ n_d b₁)`, which layer 2
  multiplies by W₂ and scales again; the output is `affine A₂ n_d b₂`.

  Also here: a keepdims column [M,1] spread along the second axis reads its row's entry, and a row [1,N] spread along
  the first axis reads its column's entry.
-/
import Idealize.ShloMosaic.Lib.Pipeline.Value
import Idealize.ShloMosaic.Lib.ValueIdx
import Idealize.ShloMosaic.PureOps.Ideal.Laws

noncomputable section

open scoped BigOperators

namespace Cert.Gcn

open Idealize.ShloMosaic Idealize.ShloMosaic.ValueIdx

/-- An M × N array of extended reals. -/
abbrev Mat (M N : Nat) := FVec Ideal (⟨2, ![M, N]⟩ : Shape) .f32

/-- The zero pattern, kept as the literal both programs print. -/
abbrev zeroLit : Ideal .f32 := FloatOps.ofBits .f32 0x00000000#32

/-- X·W with row r scaled by n[r,0]. -/
def scaledProduct {M K N : Nat} (X : Mat M K) (W : Mat K N) (n : Mat M 1) : Mat M N :=
  fun i => (∑ k : Fin K, X (ix2 (i 0) k) * W (ix2 k (i 1))) * n (ix2 (i 0) 0)

theorem scaledProduct_apply {M K N : Nat} (X : Mat M K) (W : Mat K N) (n : Mat M 1) (r : Fin M) (j : Fin N) :
    scaledProduct X W n (ix2 r j) = (∑ k : Fin K, X (ix2 r k) * W (ix2 k j)) * n (ix2 r 0) := rfl

/-- Row r of A scaled by d[r,0], plus the row vector b. -/
def affine {M N : Nat} (A : Mat M N) (d : Mat M 1) (b : Mat 1 N) : Mat M N :=
  fun i => A i * d (ix2 (i 0) 0) + b (ix2 0 (i 1))

theorem affine_apply {M N : Nat} (A : Mat M N) (d : Mat M 1) (b : Mat 1 N) (r : Fin M) (j : Fin N) :
    affine A d b (ix2 r j) = A (ix2 r j) * d (ix2 r 0) + b (ix2 0 j) := rfl

/-- The entrywise maximum with zero. -/
def relu {M N : Nat} (A : Mat M N) : Mat M N := fun i => max (A i) zeroLit

theorem relu_apply {M N : Nat} (A : Mat M N) (i : (⟨2, ![M, N]⟩ : Shape).Idx) : relu A i = max (A i) zeroLit := rfl

/-- A keepdims column spread along the second axis reads the row's entry. -/
theorem col_spread {M N : Nat} (x : Mat M 1) (h : (⟨2, ![M, 1]⟩ : Shape).Broadcasts ⟨2, ![M, N]⟩)
    (hM : M ≠ 1) (p : Fin M) (q : Fin N) :
    broadcastTo (⟨2, ![M, N]⟩ : Shape) x h (ix2 p q) = x (ix2 p 0) := by
  refine broadcastTo_apply x h (ix2 p q) (ix2 p 0) fun a => ?_
  match a with
  | ⟨0, _⟩ => show p.val = if M = 1 then 0 else p.val; rw [if_neg hM]
  | ⟨1, _⟩ => show (0 : Nat) = if (1 : Nat) = 1 then 0 else q.val; rw [if_pos rfl]

/-- A row spread along the first axis reads the column's entry. -/
theorem row_spread {M N : Nat} (x : Mat 1 N) (h : (⟨2, ![1, N]⟩ : Shape).Broadcasts ⟨2, ![M, N]⟩)
    (hN : N ≠ 1) (p : Fin M) (q : Fin N) :
    broadcastTo (⟨2, ![M, N]⟩ : Shape) x h (ix2 p q) = x (ix2 0 q) := by
  refine broadcastTo_apply x h (ix2 p q) (ix2 0 q) fun a => ?_
  match a with
  | ⟨0, _⟩ => show (0 : Nat) = if (1 : Nat) = 1 then 0 else p.val; rw [if_pos rfl]
  | ⟨1, _⟩ => show q.val = if N = 1 then 0 else q.val; rw [if_neg hN]

/-- The two zero offsets of a block read from its first entry. -/
theorem hz : (![0, 0] : Fin 2 → Nat) = fun _ => 0 := funext fun a => by fin_cases a <;> rfl

end Cert.Gcn

end
-- ==== Proof.Layer1.lean ====
/-
  The first pallas_call of the idealized kernel: the layer-1 transform before aggregation.

  Grid point t (of 25) reads rows 4000 t … 4000 t + 3999 of the features and of the source-norm column, the whole
  weight matrix, and writes the same rows of the result. Its body is a matrix product into a zero accumulator (the
  change of float format in front of it is the identity on extended reals) times the column spread along the rows, so at
  entry (p, q) of the block it is (Σ_k x[p,k]·w[k,q])·n[p,0]: block t of `scaledProduct` of the whole arrays. The 25
  blocks tile the array, so after the region the array holds `scaledProduct` of the arrays the region found.
-/
import proofs.«138191_j30992484008171_1_alg».proof.Proof.Gen.KernelIdeal.Frame
import proofs.«138191_j30992484008171_1_alg».proof.Proof.LibDot
import proofs.«138191_j30992484008171_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Layer1

open Idealize.ShloMosaic Idealize.ShloMosaic.TcCoe Idealize.SL.Sem Idealize.ShloMosaic.ValueIdx
open Idealize.ShloMosaic.Pipeline (Dat)
open Cert.KernelIdeal Cert.KernelIdeal.Gen Cert.Gcn

/-- The body's stored value at entry (p, q) of its block. -/
theorem payload (x0 : Vec Ideal S4000x256 .f32) (x1 : Vec Ideal S256x128 .f32) (x2 : Vec Ideal S4000x1 .f32) (p : Fin 4000) (q : Fin 128) :
    k0_pay1 x0 x1 x2 (ix2 p q) = (∑ k : Fin 256, x0 (ix2 p k) * x1 (ix2 k q)) * x2 (ix2 p 0) := by
  unfold k0_pay1
  rw [mulf_apply]
  refine congrArg₂ (· * ·) ?_ ?_
  · exact Cert.LibDot.matmul_10_zero_apply dot_S4000x256_S256x128_S4000x128_1_0_0_1_n_n rfl rfl rfl rfl rfl rfl none _ _ p q
  · rw [shapeCast_self]
    exact col_spread x2 _ (by decide) p q

variable (V : (c : Dev nD) → (b : Ref sig .tc) → Buf (Elt Ideal) ((c : Thread nD τ).loc b))

/-- The arrays the region reads, as it finds them, each at its literal type: features, weights, source-norm column. -/
abbrev feats (c : Dev nD) : Mat 100000 256 := V c main_arg0
abbrev weights (c : Dev nD) : Mat 256 128 := V c main_arg3
abbrev srcNorm (c : Dev nD) : Mat 100000 1 := V c main_v11

/-- Row `p` of the block of 4000 rows that grid point `t` works on. -/
abbrev row (t : Fin cfg0.N) (p : Fin 4000) : Fin 100000 :=
  ⟨4000 * t.val + p.val, by have := t.isLt; have : cfg0.N = 25 := N_0; omega⟩

/-- The printed index maps over the grid: the row-blocked windows are at block (t, 0), the weights at (0, 0). -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What grid point `t` writes back is block `t` of `scaledProduct` of the arrays the region found. -/
theorem flushed_eq (c : Dev nD) (t : Fin cfg0.N) :
    (dat0 V c).flushed 3 t = ((cfg0.win 3).blk t).view.read (Elt Ideal) (scaledProduct (feats V c) (weights V c) (srcNorm V c)) := by
  show (cfg0.win 3).cut (grid0.coords t) ((dat0 V c).after 3 t) = _
  rw [after0_3]
  unfold out0_3
  rw [View.canon_unit_zero hz]
  simp only [View.ld_unit_zero (S := S4000x256) hz, View.ld_unit_zero (S := S256x128) hz, View.ld_unit_zero (S := S4000x1) hz]
  obtain ⟨e00, e01, e10, e11, e20, e21, e30, e31⟩ := index_maps t
  funext j
  obtain ⟨p, q, rfl⟩ : ∃ (p : Fin 4000) (q : Fin 128), j = ix2 p q := ⟨j 0, j 1, eq_ix2 j⟩
  -- each input block read where the output's rectangle says: block `t` is rows 4000 t … 4000 t + 3999
  have hx : ∀ k : Fin 256, (iblk0 V c 0 t : Vec Ideal S4000x256 .f32) (ix2 p k) = feats V c (ix2 (row t p) k) := fun k => by
    show V c main_arg0 (((cfg0.win 0).blk t).view.emb (ix2 p k)) = _
    refine congrArg (V c main_arg0) ?_
    funext a; apply Fin.ext
    match a with
    | ⟨0, _⟩ => show win0_0.index t (0 : Fin 2) * 4000 + 1 * p.val = 4000 * t.val + p.val; rw [e00]; omega
    | ⟨1, _⟩ => show win0_0.index t (1 : Fin 2) * 256 + 1 * k.val = k.val; rw [e01]; omega
  have hw : ∀ k : Fin 256, (iblk0 V c 1 t : Vec Ideal S256x128 .f32) (ix2 k q) = weights V c (ix2 k q) := fun k => by
    show V c main_arg3 (((cfg0.win 1).blk t).view.emb (ix2 k q)) = _
    refine congrArg (V c main_arg3) ?_
    funext a; apply Fin.ext
    match a with
    | ⟨0, _⟩ => show win0_1.index t (0 : Fin 2) * 256 + 1 * k.val = k.val; rw [e10]; omega
    | ⟨1, _⟩ => show win0_1.index t (1 : Fin 2) * 128 + 1 * q.val = q.val; rw [e11]; omega
  have hn : (iblk0 V c 2 t : Vec Ideal S4000x1 .f32) (ix2 p 0) = srcNorm V c (ix2 (row t p) 0) := by
    show V c main_v11 (((cfg0.win 2).blk t).view.emb (ix2 p 0)) = _
    refine congrArg (V c main_v11) ?_
    funext a; apply Fin.ext
    match a with
    | ⟨0, _⟩ => show win0_2.index t (0 : Fin 2) * 4000 + 1 * p.val = 4000 * t.val + p.val; rw [e20]; omega
    | ⟨1, _⟩ => show win0_2.index t (1 : Fin 2) * 1 + 1 * 0 = 0; rw [e21]
  have he : ((cfg0.win 3).blk t).view.emb (ix2 p q) = (ix2 (row t p) q : S100000x128.Idx) := by
    funext a; apply Fin.ext
    match a with
    | ⟨0, _⟩ => show win0_3.index t (0 : Fin 2) * 4000 + 1 * p.val = 4000 * t.val + p.val; rw [e30]; omega
    | ⟨1, _⟩ => show win0_3.index t (1 : Fin 2) * 128 + 1 * q.val = q.val; rw [e31]; omega
  show k0_pay1 (iblk0 V c 0 t) (iblk0 V c 1 t) (iblk0 V c 2 t) (ix2 p q)
    = scaledProduct (feats V c) (weights V c) (srcNorm V c) (((cfg0.win 3).blk t).view.emb (ix2 p q))
  rw [he, scaledProduct_apply]
  refine (payload (iblk0 V c 0 t) (iblk0 V c 1 t) (iblk0 V c 2 t) p q).trans ?_
  rw [hn]
  refine congrArg (· * _) ?_
  exact Finset.sum_congr rfl fun k _ => by rw [hx k, hw k]

/-- An index of the result array is in point `t`'s block iff each coordinate is in the block's range on its axis. -/
theorem mem_block (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v15).slice (win0_3.rect t)).set ↔ _
  rw [View.set_slice_whole, Rect.mem_set_unit]
  exact Iff.rfl

/-- After the region the result array holds `scaledProduct` of the arrays the region found: row r lies in the block
    of point r / 4000. -/
theorem final (c : Dev nD) : (dat0 V c).arrAt 3 cfg0.N = scaledProduct (feats V c) (weights V c) (srcNorm V c) :=
  (dat0 V c).arrAt_eq_of_cover 3 _ (fun t _ => flushed_eq V c t) fun (i : S100000x128.Idx) => by
    have hi0 : (i 0).val < 100000 := (i 0).isLt
    have hi1 : (i 1).val < 128 := (i 1).isLt
    have hN : cfg0.N = 25 := N_0
    obtain ⟨e00, e01, e10, e11, e20, e21, e30, e31⟩ := index_maps ⟨(i 0).val / 4000, by omega⟩
    refine ⟨⟨(i 0).val / 4000, by omega⟩, flush0_3 _, ?_⟩
    rw [mem_block]
    intro a
    match a with
    | ⟨0, _⟩ =>
      show win0_3.index ⟨(i 0).val / 4000, _⟩ (0 : Fin 2) * 4000 ≤ (i 0).val ∧ (i 0).val < win0_3.index ⟨(i 0).val / 4000, _⟩ (0 : Fin 2) * 4000 + 4000
      rw [e30]; show (i 0).val / 4000 * 4000 ≤ (i 0).val ∧ (i 0).val < (i 0).val / 4000 * 4000 + 4000; omega
    | ⟨1, _⟩ =>
      show win0_3.index ⟨(i 0).val / 4000, _⟩ (1 : Fin 2) * 128 ≤ (i 1).val ∧ (i 1).val < win0_3.index ⟨(i 0).val / 4000, _⟩ (1 : Fin 2) * 128 + 128
      rw [e31]; omega

end Cert.KernelIdeal.Layer1

end
-- ==== Proof.Layer2.lean ====
/-
  The second pallas_call of the idealized kernel: layer 1 after aggregation fused with the layer-2 transform.

  Grid point t (of 25) reads rows 4000 t … 4000 t + 3999 of the aggregated array and of both norm columns, the whole bias
  row and the whole weight matrix. Its body scales row p by d[p,0], adds the bias row, takes the maximum with zero,
  multiplies by the weights into a zero accumulator (the change of float format in front of the product is the
  identity on extended reals) and scales row p by n[p,0]: at entry (p, q) of the block it is
  (Σ_k max(a[p,k]·d[p,0] + b[0,k], 0)·w[k,q])·n[p,0], block t of `scaledProduct (relu (affine A d b)) W n` of the whole
  arrays. The 25 blocks tile the array.
-/
import proofs.«138191_j30992484008171_1_alg».proof.Proof.Gen.KernelIdeal.Frame
import proofs.«138191_j30992484008171_1_alg».proof.Proof.LibDot
import proofs.«138191_j30992484008171_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Layer2

open Idealize.ShloMosaic Idealize.ShloMosaic.TcCoe Idealize.SL.Sem Idealize.ShloMosaic.ValueIdx
open Idealize.ShloMosaic.Pipeline (Dat)
open Cert.KernelIdeal Cert.KernelIdeal.Gen Cert.Gcn

/-- The body's stored value at entry (p, q) of its block. -/
theorem payload (x0 : Vec Ideal S4000x128 .f32) (x1 : Vec Ideal S4000x1 .f32) (x2 : Vec Ideal S1x128 .f32)
    (x3 : Vec Ideal S128x40 .f32) (x4 : Vec Ideal S4000x1 .f32) (p : Fin 4000) (q : Fin 40) :
    k1_pay1 x0 x1 x2 x3 x4 (ix2 p q)
      = (∑ k : Fin 128, max (x0 (ix2 p k) * x1 (ix2 p 0) + x2 (ix2 0 k)) zeroLit * x3 (ix2 k q)) * x4 (ix2 p 0) := by
  unfold k1_pay1
  rw [mulf_apply]
  refine congrArg₂ (· * ·) ?_ ?_
  · refine (Cert.LibDot.matmul_10_zero_apply dot_S4000x128_S128x40_S4000x40_1_0_0_1_n_n rfl rfl rfl rfl rfl rfl none _ _ p q).trans ?_
    refine Finset.sum_congr rfl fun k _ => ?_
    rw [truncf_apply, truncf_apply, maximumf_apply, addf_apply, mulf_apply, shapeCast_self, shapeCast_self, shapeCast_self,
      col_spread x1 _ (by decide) p k, row_spread x2 _ (by decide) p k]
    rfl
  · rw [shapeCast_self]
    exact col_spread x4 _ (by decide) p q

variable (V : (c : Dev nD) → (b : Ref sig .tc) → Buf (Elt Ideal) ((c : Thread nD τ).loc b))

/-- The arrays the region reads, as it finds them, each at its literal type: aggregate, destination-norm column,
    bias row, weights, source-norm column. -/
abbrev agg (c : Dev nD) : Mat 100000 128 := V c main_v25
abbrev dstNorm (c : Dev nD) : Mat 100000 1 := V c main_v12
abbrev bias (c : Dev nD) : Mat 1 128 := V c main_v13
abbrev weights (c : Dev nD) : Mat 128 40 := V c main_arg5
abbrev srcNorm (c : Dev nD) : Mat 100000 1 := V c main_v11

/-- Row `p` of the block of 4000 rows that grid point `t` works on. -/
abbrev row (t : Fin cfg1.N) (p : Fin 4000) : Fin 100000 :=
  ⟨4000 * t.val + p.val, by have := t.isLt; have : cfg1.N = 25 := N_1; omega⟩

/-- The printed index maps over the grid: the row-blocked windows are at block (t, 0), the bias row and the weights at
    (0, 0). -/
theorem index_maps : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- The whole-array function the region computes. -/
abbrev result (c : Dev nD) : Mat 100000 40 :=
  scaledProduct (relu (affine (agg V c) (dstNorm V c) (bias V c))) (weights V c) (srcNorm V c)

/-- What grid point `t` writes back is block `t` of `result`. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero hz]
  simp only [View.ld_unit_zero (S := S4000x128) hz, View.ld_unit_zero (S := S4000x1) hz, View.ld_unit_zero (S := S1x128) hz,
    View.ld_unit_zero (S := S128x40) hz]
  obtain ⟨e00, e01, e10, e11, e20, e21, e30, e31, e40, e41, e50, e51⟩ := index_maps t
  funext j
  obtain ⟨p, q, rfl⟩ : ∃ (p : Fin 4000) (q : Fin 40), j = ix2 p q := ⟨j 0, j 1, eq_ix2 j⟩
  have ha : ∀ k : Fin 128, (iblk1 V c 0 t : Vec Ideal S4000x128 .f32) (ix2 p k) = agg V c (ix2 (row t p) k) := fun k => by
    show V c main_v25 (((cfg1.win 0).blk t).view.emb (ix2 p k)) = _
    refine congrArg (V c main_v25) ?_
    funext a; apply Fin.ext
    match a with
    | ⟨0, _⟩ => show win1_0.index t (0 : Fin 2) * 4000 + 1 * p.val = 4000 * t.val + p.val; rw [e00]; omega
    | ⟨1, _⟩ => show win1_0.index t (1 : Fin 2) * 128 + 1 * k.val = k.val; rw [e01]; omega
  have hd : (iblk1 V c 1 t : Vec Ideal S4000x1 .f32) (ix2 p 0) = dstNorm V c (ix2 (row t p) 0) := by
    show V c main_v12 (((cfg1.win 1).blk t).view.emb (ix2 p 0)) = _
    refine congrArg (V c main_v12) ?_
    funext a; apply Fin.ext
    match a with
    | ⟨0, _⟩ => show win1_1.index t (0 : Fin 2) * 4000 + 1 * p.val = 4000 * t.val + p.val; rw [e10]; omega
    | ⟨1, _⟩ => show win1_1.index t (1 : Fin 2) * 1 + 1 * 0 = 0; rw [e11]
  have hb : ∀ k : Fin 128, (iblk1 V c 2 t : Vec Ideal S1x128 .f32) (ix2 0 k) = bias V c (ix2 0 k) := fun k => by
    show V c main_v13 (((cfg1.win 2).blk t).view.emb (ix2 0 k)) = _
    refine congrArg (V c main_v13) ?_
    funext a; apply Fin.ext
    match a with
    | ⟨0, _⟩ => show win1_2.index t (0 : Fin 2) * 1 + 1 * 0 = 0; rw [e20]
    | ⟨1, _⟩ => show win1_2.index t (1 : Fin 2) * 128 + 1 * k.val = k.val; rw [e21]; omega
  have hw : ∀ k : Fin 128, (iblk1 V c 3 t : Vec Ideal S128x40 .f32) (ix2 k q) = weights V c (ix2 k q) := fun k => by
    show V c main_arg5 (((cfg1.win 3).blk t).view.emb (ix2 k q)) = _
    refine congrArg (V c main_arg5) ?_
    funext a; apply Fin.ext
    match a with
    | ⟨0, _⟩ => show win1_3.index t (0 : Fin 2) * 128 + 1 * k.val = k.val; rw [e30]; omega
    | ⟨1, _⟩ => show win1_3.index t (1 : Fin 2) * 40 + 1 * q.val = q.val; rw [e31]; omega
  have hn : (iblk1 V c 4 t : Vec Ideal S4000x1 .f32) (ix2 p 0) = srcNorm V c (ix2 (row t p) 0) := by
    show V c main_v11 (((cfg1.win 4).blk t).view.emb (ix2 p 0)) = _
    refine congrArg (V c main_v11) ?_
    funext a; apply Fin.ext
    match a with
    | ⟨0, _⟩ => show win1_4.index t (0 : Fin 2) * 4000 + 1 * p.val = 4000 * t.val + p.val; rw [e40]; omega
    | ⟨1, _⟩ => show win1_4.index t (1 : Fin 2) * 1 + 1 * 0 = 0; rw [e41]
  have he : ((cfg1.win 5).blk t).view.emb (ix2 p q) = (ix2 (row t p) q : S100000x40.Idx) := by
    funext a; apply Fin.ext
    match a with
    | ⟨0, _⟩ => show win1_5.index t (0 : Fin 2) * 4000 + 1 * p.val = 4000 * t.val + p.val; rw [e50]; omega
    | ⟨1, _⟩ => show win1_5.index t (1 : Fin 2) * 40 + 1 * q.val = q.val; rw [e51]; omega
  show k1_pay1 (iblk1 V c 0 t) (iblk1 V c 1 t) (iblk1 V c 2 t) (iblk1 V c 3 t) (iblk1 V c 4 t) (ix2 p q)
    = result V c (((cfg1.win 5).blk t).view.emb (ix2 p q))
  rw [he]
  show _ = scaledProduct (relu (affine (agg V c) (dstNorm V c) (bias V c))) (weights V c) (srcNorm V c) (ix2 (row t p) q)
  rw [scaledProduct_apply]
  refine (payload (iblk1 V c 0 t) (iblk1 V c 1 t) (iblk1 V c 2 t) (iblk1 V c 3 t) (iblk1 V c 4 t) p q).trans ?_
  rw [hn, hd]
  refine congrArg (· * _) ?_
  refine Finset.sum_congr rfl fun k _ => ?_
  rw [ha k, hb k, hw k, relu_apply, affine_apply]

/-- An index of the result array is in point `t`'s block iff each coordinate is in the block's range on its axis. -/
theorem mem_block (t : Fin cfg1.N) (i : S100000x40.Idx) :
    i ∈ ((cfg1.win 5).blk t).view.set ↔ ∀ a : Fin 2, win1_5.index t a * S4000x40.size a ≤ (i a).val ∧ (i a).val < win1_5.index t a * S4000x40.size a + S4000x40.size a := by
  show i ∈ ((View.whole main_v26).slice (win1_5.rect t)).set ↔ _
  rw [View.set_slice_whole, Rect.mem_set_unit]
  exact Iff.rfl

/-- After the region the result array holds `result`: row r lies in the block of point r / 4000. -/
theorem final (c : Dev nD) : (dat1 V c).arrAt 5 cfg1.N = result V c :=
  (dat1 V c).arrAt_eq_of_cover 5 _ (fun t _ => flushed_eq V c t) fun (i : S100000x40.Idx) => by
    have hi0 : (i 0).val < 100000 := (i 0).isLt
    have hi1 : (i 1).val < 40 := (i 1).isLt
    have hN : cfg1.N = 25 := N_1
    obtain ⟨e00, e01, e10, e11, e20, e21, e30, e31, e40, e41, e50, e51⟩ := index_maps ⟨(i 0).val / 4000, by omega⟩
    refine ⟨⟨(i 0).val / 4000, by omega⟩, flush1_5 _, ?_⟩
    rw [mem_block]
    intro a
    match a with
    | ⟨0, _⟩ =>
      show win1_5.index ⟨(i 0).val / 4000, _⟩ (0 : Fin 2) * 4000 ≤ (i 0).val ∧ (i 0).val < win1_5.index ⟨(i 0).val / 4000, _⟩ (0 : Fin 2) * 4000 + 4000
      rw [e50]; show (i 0).val / 4000 * 4000 ≤ (i 0).val ∧ (i 0).val < (i 0).val / 4000 * 4000 + 4000; omega
    | ⟨1, _⟩ =>
      show win1_5.index ⟨(i 0).val / 4000, _⟩ (1 : Fin 2) * 40 ≤ (i 1).val ∧ (i 1).val < win1_5.index ⟨(i 0).val / 4000, _⟩ (1 : Fin 2) * 40 + 40
      rw [e51]; omega

end Cert.KernelIdeal.Layer2

end
-- ==== Proof.Output.lean ====
/-
  The third pallas_call of the idealized kernel: the output layer after aggregation.

  Grid point t (of 25) reads rows 4000 t … 4000 t + 3999 of the aggregated array and of the destination-norm column,
  the whole bias row, and writes the same rows of the result: entry (p, q) of its block is a[p,q]·d[p,0] + b[0,q], block t
  of `affine` of the whole arrays. The 25 blocks tile the array, so after the region it holds `affine` of the arrays
  the region found.
-/
import proofs.«138191_j30992484008171_1_alg».proof.Proof.Gen.KernelIdeal.Frame
import proofs.«138191_j30992484008171_1_alg».proof.Proof.LibDot
import proofs.«138191_j30992484008171_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Output

open Idealize.ShloMosaic Idealize.ShloMosaic.TcCoe Idealize.SL.Sem Idealize.ShloMosaic.ValueIdx
open Idealize.ShloMosaic.Pipeline (Dat)
open Cert.KernelIdeal Cert.KernelIdeal.Gen Cert.Gcn

/-- The body's stored value at entry (p, q) of its block. -/
theorem payload (x0 : Vec Ideal S4000x40 .f32) (x1 : Vec Ideal S4000x1 .f32) (x2 : Vec Ideal S1x40 .f32) (p : Fin 4000) (q : Fin 40) :
    k2_pay1 x0 x1 x2 (ix2 p q) = x0 (ix2 p q) * x1 (ix2 p 0) + x2 (ix2 0 q) := by
  unfold k2_pay1
  rw [addf_apply, mulf_apply, shapeCast_self, shapeCast_self, shapeCast_self,
    col_spread x1 _ (by decide) p q, row_spread x2 _ (by decide) p q]

variable (V : (c : Dev nD) → (b : Ref sig .tc) → Buf (Elt Ideal) ((c : Thread nD τ).loc b))

/-- The arrays the region reads, as it finds them, each at its literal type: aggregate, destination-norm column, bias row. -/
abbrev agg (c : Dev nD) : Mat 100000 40 := V c main_v36
abbrev dstNorm (c : Dev nD) : Mat 100000 1 := V c main_v12
abbrev bias (c : Dev nD) : Mat 1 40 := V c main_v14

/-- Row `p` of the block of 4000 rows that grid point `t` works on. -/
abbrev row (t : Fin cfg2.N) (p : Fin 4000) : Fin 100000 :=
  ⟨4000 * t.val + p.val, by have := t.isLt; have : cfg2.N = 25 := N_2; omega⟩

/-- The printed index maps over the grid: the row-blocked windows are at block (t, 0), the bias row at (0, 0). -/
theorem index_maps : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What grid point `t` writes back is block `t` of `affine` of the arrays the region found. -/
theorem flushed_eq (c : Dev nD) (t : Fin cfg2.N) :
    (dat2 V c).flushed 3 t = ((cfg2.win 3).blk t).view.read (Elt Ideal) (affine (agg V c) (dstNorm V c) (bias V c)) := by
  show (cfg2.win 3).cut (grid2.coords t) ((dat2 V c).after 3 t) = _
  rw [after2_3]
  unfold out2_3
  rw [View.canon_unit_zero hz]
  simp only [View.ld_unit_zero (S := S4000x40) hz, View.ld_unit_zero (S := S4000x1) hz, View.ld_unit_zero (S := S1x40) hz]
  obtain ⟨e00, e01, e10, e11, e20, e21, e30, e31⟩ := index_maps t
  funext j
  obtain ⟨p, q, rfl⟩ : ∃ (p : Fin 4000) (q : Fin 40), j = ix2 p q := ⟨j 0, j 1, eq_ix2 j⟩
  have ha : (iblk2 V c 0 t : Vec Ideal S4000x40 .f32) (ix2 p q) = agg V c (ix2 (row t p) q) := by
    show V c main_v36 (((cfg2.win 0).blk t).view.emb (ix2 p q)) = _
    refine congrArg (V c main_v36) ?_
    funext a; apply Fin.ext
    match a with
    | ⟨0, _⟩ => show win2_0.index t (0 : Fin 2) * 4000 + 1 * p.val = 4000 * t.val + p.val; rw [e00]; omega
    | ⟨1, _⟩ => show win2_0.index t (1 : Fin 2) * 40 + 1 * q.val = q.val; rw [e01]; omega
  have hd : (iblk2 V c 1 t : Vec Ideal S4000x1 .f32) (ix2 p 0) = dstNorm V c (ix2 (row t p) 0) := by
    show V c main_v12 (((cfg2.win 1).blk t).view.emb (ix2 p 0)) = _
    refine congrArg (V c main_v12) ?_
    funext a; apply Fin.ext
    match a with
    | ⟨0, _⟩ => show win2_1.index t (0 : Fin 2) * 4000 + 1 * p.val = 4000 * t.val + p.val; rw [e10]; omega
    | ⟨1, _⟩ => show win2_1.index t (1 : Fin 2) * 1 + 1 * 0 = 0; rw [e11]
  have hb : (iblk2 V c 2 t : Vec Ideal S1x40 .f32) (ix2 0 q) = bias V c (ix2 0 q) := by
    show V c main_v14 (((cfg2.win 2).blk t).view.emb (ix2 0 q)) = _
    refine congrArg (V c main_v14) ?_
    funext a; apply Fin.ext
    match a with
    | ⟨0, _⟩ => show win2_2.index t (0 : Fin 2) * 1 + 1 * 0 = 0; rw [e20]
    | ⟨1, _⟩ => show win2_2.index t (1 : Fin 2) * 40 + 1 * q.val = q.val; rw [e21]; omega
  have he : ((cfg2.win 3).blk t).view.emb (ix2 p q) = (ix2 (row t p) q : S100000x40.Idx) := by
    funext a; apply Fin.ext
    match a with
    | ⟨0, _⟩ => show win2_3.index t (0 : Fin 2) * 4000 + 1 * p.val = 4000 * t.val + p.val; rw [e30]; omega
    | ⟨1, _⟩ => show win2_3.index t (1 : Fin 2) * 40 + 1 * q.val = q.val; rw [e31]; omega
  show k2_pay1 (iblk2 V c 0 t) (iblk2 V c 1 t) (iblk2 V c 2 t) (ix2 p q)
    = affine (agg V c) (dstNorm V c) (bias V c) (((cfg2.win 3).blk t).view.emb (ix2 p q))
  rw [he, affine_apply]
  refine (payload (iblk2 V c 0 t) (iblk2 V c 1 t) (iblk2 V c 2 t) p q).trans ?_
  rw [ha, hd, hb]

/-- An index of the result array is in point `t`'s block iff each coordinate is in the block's range on its axis. -/
theorem mem_block (t : Fin cfg2.N) (i : S100000x40.Idx) :
    i ∈ ((cfg2.win 3).blk t).view.set ↔ ∀ a : Fin 2, win2_3.index t a * S4000x40.size a ≤ (i a).val ∧ (i a).val < win2_3.index t a * S4000x40.size a + S4000x40.size a := by
  show i ∈ ((View.whole main_v37).slice (win2_3.rect t)).set ↔ _
  rw [View.set_slice_whole, Rect.mem_set_unit]
  exact Iff.rfl

/-- After the region the result array holds `affine` of the arrays the region found: row r lies in the block of
    point r / 4000. -/
theorem final (c : Dev nD) : (dat2 V c).arrAt 3 cfg2.N = affine (agg V c) (dstNorm V c) (bias V c) :=
  (dat2 V c).arrAt_eq_of_cover 3 _ (fun t _ => flushed_eq V c t) fun (i : S100000x40.Idx) => by
    have hi0 : (i 0).val < 100000 := (i 0).isLt
    have hi1 : (i 1).val < 40 := (i 1).isLt
    have hN : cfg2.N = 25 := N_2
    obtain ⟨e00, e01, e10, e11, e20, e21, e30, e31⟩ := index_maps ⟨(i 0).val / 4000, by omega⟩
    refine ⟨⟨(i 0).val / 4000, by omega⟩, flush2_3 _, ?_⟩
    rw [mem_block]
    intro a
    match a with
    | ⟨0, _⟩ =>
      show win2_3.index ⟨(i 0).val / 4000, _⟩ (0 : Fin 2) * 4000 ≤ (i 0).val ∧ (i 0).val < win2_3.index ⟨(i 0).val / 4000, _⟩ (0 : Fin 2) * 4000 + 4000
      rw [e30]; show (i 0).val / 4000 * 4000 ≤ (i 0).val ∧ (i 0).val < (i 0).val / 4000 * 4000 + 4000; omega
    | ⟨1, _⟩ =>
      show win2_3.index ⟨(i 0).val / 4000, _⟩ (1 : Fin 2) * 40 ≤ (i 1).val ∧ (i 1).val < win2_3.index ⟨(i 0).val / 4000, _⟩ (1 : Fin 2) * 40 + 40
      rw [e31]; omega

end Cert.KernelIdeal.Output

end
-- ==== Proof.RefStages.lean ====
/-
  The reference's three dense stages are the layer functions of their operands.

  The reference computes, on whole arrays: the product of the features with the first weights times the source norm
  spread along the rows; then, of the first aggregate, the rows scaled by the destination norm plus the bias, the maximum
  with zero, the product with the second weights times the source norm again; then, of the second aggregate, the rows
  scaled by the destination norm plus the second bias. Read at an index (the generated one-operation lemmas), each is
  `scaledProduct`, `relu` of `affine`, or `affine` of the same operands, with the norm vectors as keepdims columns and
  the bias vectors as one-row matrices.
-/
import proofs.«138191_j30992484008171_1_alg».proof.Proof.Gen.ReferenceIdeal.Read
import proofs.«138191_j30992484008171_1_alg».proof.Proof.Spec
import Idealize.ShloMosaic.Lib.ValueIdx
import Idealize.ShloMosaic.PureOps.Ideal.Laws

noncomputable section

open scoped BigOperators

namespace Cert.ReferenceIdeal.Stages

open Idealize.ShloMosaic Idealize.ShloMosaic.ValueIdx
open Cert.ReferenceIdeal Cert.ReferenceIdeal.Read Cert.Gcn

/-- A vector over the nodes as a keepdims column. -/
def col (v : FVec Ideal (⟨1, ![100000]⟩ : Shape) .f32) : Mat 100000 1 := fun i => v (ix1 (i 0))

/-- A vector as a one-row matrix. -/
def rowVec {N : Nat} (v : FVec Ideal (⟨1, ![N]⟩ : Shape) .f32) : Mat 1 N := fun i => v (ix1 (i 1))

/-- Layer 1 before aggregation: the features times the first weights, row r scaled by the source norm of r. -/
theorem transform1 (x0 : (⟨S100000x256, .f32⟩ : BufTy).Contents (Elt Ideal)) (x1 : (⟨S1600000, .i32⟩ : BufTy).Contents (Elt Ideal)) (x3 : (⟨S256x128, .f32⟩ : BufTy).Contents (Elt Ideal)) :
    val_main_v14 (F := Ideal) x0 x1 x3 = scaledProduct x0 x3 (col (val_main_v8 (F := Ideal) x1)) := by
  funext i
  obtain ⟨r, j, rfl⟩ : ∃ (r : Fin 100000) (j : Fin 128), i = ix2 r j := ⟨i 0, i 1, eq_ix2 i⟩
  rw [val_main_v14_apply, val_main_v11_apply, val_main_v13_apply, val_main_v12_apply, scaledProduct_apply]
  have hl : ∀ k : Fin 256, lidx_main_v11 (ix2 r j) k = ix2 r k := fun k => funext fun a => by
    match a with | ⟨0, _⟩ => rfl | ⟨1, _⟩ => rfl
  have hr : ∀ k : Fin 256, ridx_main_v11 (ix2 r j) k = ix2 k j := fun k => funext fun a => by
    match a with | ⟨0, _⟩ => rfl | ⟨1, _⟩ => rfl
  have hc : idx_main_v12 (idx_main_v13 (ix2 r j)) = ix1 r := funext fun a => by
    match a with | ⟨0, _⟩ => rfl
  simp only [hl, hr, hc]
  rfl

/-- Layer 1 after aggregation, at an entry: the aggregate's row scaled by the destination norm, plus the bias, cut at zero. -/
theorem hidden_apply (x0 : (⟨S100000x256, .f32⟩ : BufTy).Contents (Elt Ideal)) (x1 x2 : (⟨S1600000, .i32⟩ : BufTy).Contents (Elt Ideal)) (x3 : (⟨S256x128, .f32⟩ : BufTy).Contents (Elt Ideal)) (x4 : (⟨S128, .f32⟩ : BufTy).Contents (Elt Ideal)) (r : Fin 100000) (k : Fin 128) :
    val_main_v31 (F := Ideal) x0 x1 x2 x3 x4 (ix2 r k)
      = relu (affine (val_main_v24 (F := Ideal) x0 x1 x2 x3) (col (val_main_v10 (F := Ideal) x2)) (rowVec x4)) (ix2 r k) := by
  rw [val_main_v31_apply, val_main_v30_apply, val_main_v27_apply, val_main_v26_apply, val_main_v25_apply, val_main_v29_apply,
    val_main_v28_apply, val_main_call2_v0_apply, val_main_call2_cst_apply, relu_apply, affine_apply]
  have hd : idx_main_v25 (idx_main_v26 (ix2 r k)) = ix1 r := funext fun a => by
    match a with | ⟨0, _⟩ => rfl
  have hb : idx_main_v28 (idx_main_v29 (ix2 r k)) = ix1 k := funext fun a => by
    match a with | ⟨0, _⟩ => rfl
  simp only [hd, hb]
  rfl

/-- Layer 2 before aggregation: the hidden layer times the second weights, row r scaled by the source norm of r. -/
theorem transform2 (x0 : (⟨S100000x256, .f32⟩ : BufTy).Contents (Elt Ideal)) (x1 x2 : (⟨S1600000, .i32⟩ : BufTy).Contents (Elt Ideal)) (x3 : (⟨S256x128, .f32⟩ : BufTy).Contents (Elt Ideal)) (x4 : (⟨S128, .f32⟩ : BufTy).Contents (Elt Ideal)) (x5 : (⟨S128x40, .f32⟩ : BufTy).Contents (Elt Ideal)) :
    val_main_v35 (F := Ideal) x0 x1 x2 x3 x4 x5
      = scaledProduct (relu (affine (val_main_v24 (F := Ideal) x0 x1 x2 x3) (col (val_main_v10 (F := Ideal) x2)) (rowVec x4))) x5
          (col (val_main_v8 (F := Ideal) x1)) := by
  funext i
  obtain ⟨r, j, rfl⟩ : ∃ (r : Fin 100000) (j : Fin 40), i = ix2 r j := ⟨i 0, i 1, eq_ix2 i⟩
  rw [val_main_v35_apply, val_main_v32_apply, val_main_v34_apply, val_main_v33_apply, scaledProduct_apply]
  have hl : ∀ k : Fin 128, lidx_main_v32 (ix2 r j) k = ix2 r k := fun k => funext fun a => by
    match a with | ⟨0, _⟩ => rfl | ⟨1, _⟩ => rfl
  have hr : ∀ k : Fin 128, ridx_main_v32 (ix2 r j) k = ix2 k j := fun k => funext fun a => by
    match a with | ⟨0, _⟩ => rfl | ⟨1, _⟩ => rfl
  have hc : idx_main_v33 (idx_main_v34 (ix2 r j)) = ix1 r := funext fun a => by
    match a with | ⟨0, _⟩ => rfl
  simp only [hl, hr, hc, hidden_apply]
  rfl

/-- The output: the second aggregate's row scaled by the destination norm, plus the second bias. -/
theorem output (x0 : (⟨S100000x256, .f32⟩ : BufTy).Contents (Elt Ideal)) (x1 x2 : (⟨S1600000, .i32⟩ : BufTy).Contents (Elt Ideal)) (x3 : (⟨S256x128, .f32⟩ : BufTy).Contents (Elt Ideal)) (x4 : (⟨S128, .f32⟩ : BufTy).Contents (Elt Ideal)) (x5 : (⟨S128x40, .f32⟩ : BufTy).Contents (Elt Ideal)) (x6 : (⟨S40, .f32⟩ : BufTy).Contents (Elt Ideal)) :
    val_main_v51 (F := Ideal) x0 x1 x2 x3 x4 x5 x6
      = affine (val_main_v45 (F := Ideal) x0 x1 x2 x3 x4 x5) (col (val_main_v10 (F := Ideal) x2)) (rowVec x6) := by
  funext i
  obtain ⟨r, j, rfl⟩ : ∃ (r : Fin 100000) (j : Fin 40), i = ix2 r j := ⟨i 0, i 1, eq_ix2 i⟩
  rw [val_main_v51_apply, val_main_v48_apply, val_main_v47_apply, val_main_v46_apply, val_main_v50_apply, val_main_v49_apply,
    affine_apply]
  have hd : idx_main_v46 (idx_main_v47 (ix2 r j)) = ix1 r := funext fun a => by
    match a with | ⟨0, _⟩ => rfl
  have hb : idx_main_v49 (idx_main_v50 (ix2 r j)) = ix1 j := funext fun a => by
    match a with | ⟨0, _⟩ => rfl
  simp only [hd, hb]
  rfl

end Cert.ReferenceIdeal.Stages

end
-- ==== Proof.HostSide.lean ====
/-
  What each buffer the three pallas_calls read holds when they read it, and the kernel program's result.

  Between the launch and the first pallas_call the host computes, from the two index vectors, the degree norms
  (`degreeNorm`: ones scattered onto zeros, cut below at one, one over the square root) and reshapes them to keepdims
  columns, and reshapes the two bias vectors to rows. Between the pallas_calls it gathers the rows the source indices name
  (a negative index wrapped once) and scatters them onto zeros at the destination indices (`aggregate`). No later
  host operation or pallas_call writes a buffer another one reads, so each operand is followed through the boundaries
  to where it is read. The host side is the same operations the reference applies: each stretch is one function of its
  operands, equal to the reference's stage of the same operands, and the three dense stages are `Layer1`, `Layer2`
  and `Output` against `RefStages`.
-/
import proofs.«138191_j30992484008171_1_alg».proof.Proof.Gen.KernelIdeal.Frame
import proofs.«138191_j30992484008171_1_alg».proof.Proof.Layer1
import proofs.«138191_j30992484008171_1_alg».proof.Proof.Layer2
import proofs.«138191_j30992484008171_1_alg».proof.Proof.Output
import proofs.«138191_j30992484008171_1_alg».proof.Proof.RefStages
import Idealize.ShloMosaic.Lib.StableHlo.Run
import Idealize.ShloMosaic.Lib.Pipeline.Value
import Idealize.ShloMosaic.Lib.ValueIdx

set_option maxRecDepth 16384

noncomputable section

namespace Cert.KernelIdeal.Bounds

open Idealize.ShloMosaic Idealize.ShloMosaic.TcCoe Idealize.SL.Sem Idealize.ShloMosaic.StableHlo Idealize.ShloMosaic.ValueIdx
open Cert.KernelIdeal Cert.KernelIdeal.Gen Cert.Gcn
open Cert.ReferenceIdeal.Read (val_main_v8 val_main_v10 val_main_v14 val_main_v24 val_main_v35 val_main_v45 val_main_v51)
open Cert.ReferenceIdeal.Stages (col rowVec)

/-- An index vector over the edges. -/
abbrev EdgeIdx := (⟨S1600000, .i32⟩ : BufTy).Contents (Elt Ideal)

/-! ## The host functions, in the kernel program's own records -/

/-- How many of the indices name each node: ones scattered onto zeros. -/
def counts (x : EdgeIdx) : FVec Ideal S100000 .f32 :=
  Host.scatterAdd scatter_S100000_S1600000x1_S1600000_n_0_0_1 (broadcastInDim S100000 ![] bcast_S_S100000 (constant S_ .f32 0x00000000#32))
    (broadcastInDim S1600000x1 ![0] bcast_S1600000_S1600000x1_0 x) (broadcastInDim S1600000 ![] bcast_S_S1600000 (constant S_ .f32 0x3F800000#32))

/-- The counts cut below at one. -/
def clipped (x : EdgeIdx) : FVec Ideal S100000 .f32 :=
  maximumf (broadcastInDim S100000 ![] bcast_S_S100000 (id (constant S_ .f32 0x3F800000#32))) (counts x)

/-- The degree norm of an index vector: one over the square root of the clipped count. -/
def degreeNorm (x : EdgeIdx) : FVec Ideal S100000 .f32 := Host.rsqrt (clipped x)

/-- An index below zero wrapped once around the 100000 nodes. -/
def wrapped (x : EdgeIdx) : EdgeIdx :=
  select (cmpi .slt x (broadcastInDim S1600000 ![] bcast_S_S1600000 (constantI S_ 32 0#32)))
    (addi x (broadcastInDim S1600000 ![] bcast_S_S1600000 (constantI S_ 32 100000#32))) x

/-- Layer 1's aggregation: the rows the source indices name, summed at the destination indices. -/
def aggregate128 (H : FVec Ideal S100000x128 .f32) (src dst : EdgeIdx) : FVec Ideal S100000x128 .f32 :=
  Host.scatterAdd scatter_S100000x128_S1600000x1_S1600000x128_1_0_0_1 (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 H (broadcastInDim S1600000x1 ![0] bcast_S1600000_S1600000x1_0 (wrapped src)))

/-- Layer 2's aggregation. -/
def aggregate40 (H : FVec Ideal S100000x40 .f32) (src dst : EdgeIdx) : FVec Ideal S100000x40 .f32 :=
  Host.scatterAdd scatter_S100000x40_S1600000x1_S1600000x40_1_0_0_1 (broadcastInDim S100000x40 ![] bcast_S_S100000x40 (constant S_ .f32 0x00000000#32))
    (broadcastInDim S1600000x1 ![0] bcast_S1600000_S1600000x1_0 dst)
    (Host.gather gather_S100000x40_S1600000x1_S1600000x40_1_0_n_n_0_1_140 H (broadcastInDim S1600000x1 ![0] bcast_S1600000_S1600000x1_0 (wrapped src)))

/-! ## They are the reference's stages of the same operands -/

theorem degreeNorm_src (x : EdgeIdx) : degreeNorm x = val_main_v8 (F := Ideal) x := by
  unfold degreeNorm clipped counts Cert.ReferenceIdeal.Read.val_main_v8 Cert.ReferenceIdeal.Read.val_main_v7 Cert.ReferenceIdeal.Read.val_main_call0_v1
    Cert.ReferenceIdeal.Read.val_main_call0_v0 Cert.ReferenceIdeal.Read.val_main_cst_2 Cert.ReferenceIdeal.Read.val_main_v3
    Cert.ReferenceIdeal.Read.val_main_v1 Cert.ReferenceIdeal.Read.val_main_cst_0 Cert.ReferenceIdeal.Read.val_main_v2
    Cert.ReferenceIdeal.Read.val_main_v0 Cert.ReferenceIdeal.Read.val_main_cst
  rfl

theorem degreeNorm_dst (x : EdgeIdx) : degreeNorm x = val_main_v10 (F := Ideal) x := by
  unfold degreeNorm clipped counts Cert.ReferenceIdeal.Read.val_main_v10 Cert.ReferenceIdeal.Read.val_main_v9 Cert.ReferenceIdeal.Read.val_main_call1_v1
    Cert.ReferenceIdeal.Read.val_main_call1_v0 Cert.ReferenceIdeal.Read.val_main_cst_3 Cert.ReferenceIdeal.Read.val_main_v6
    Cert.ReferenceIdeal.Read.val_main_v4 Cert.ReferenceIdeal.Read.val_main_cst_1 Cert.ReferenceIdeal.Read.val_main_v5
    Cert.ReferenceIdeal.Read.val_main_v0 Cert.ReferenceIdeal.Read.val_main_cst
  rfl

theorem aggregate128_ref (x0 : Mat 100000 256) (x1 x2 : EdgeIdx) (x3 : Mat 256 128) :
    aggregate128 (val_main_v14 (F := Ideal) x0 x1 x3) x1 x2 = val_main_v24 (F := Ideal) x0 x1 x2 x3 := by
  unfold aggregate128 wrapped Cert.ReferenceIdeal.Read.val_main_v24 Cert.ReferenceIdeal.Read.val_main_v23 Cert.ReferenceIdeal.Read.val_main_v22
    Cert.ReferenceIdeal.Read.val_main_cst_5 Cert.ReferenceIdeal.Read.val_main_v21 Cert.ReferenceIdeal.Read.val_main_v20
    Cert.ReferenceIdeal.Read.val_main_v19 Cert.ReferenceIdeal.Read.val_main_v18 Cert.ReferenceIdeal.Read.val_main_v17
    Cert.ReferenceIdeal.Read.val_main_c_4 Cert.ReferenceIdeal.Read.val_main_v16 Cert.ReferenceIdeal.Read.val_main_v15
    Cert.ReferenceIdeal.Read.val_main_c
  generalize val_main_v14 (F := Ideal) x0 x1 x3 = H
  rfl

theorem aggregate40_ref (x0 : Mat 100000 256) (x1 x2 : EdgeIdx) (x3 : Mat 256 128) (x4 : FVec Ideal S128 .f32) (x5 : Mat 128 40) :
    aggregate40 (val_main_v35 (F := Ideal) x0 x1 x2 x3 x4 x5) x1 x2 = val_main_v45 (F := Ideal) x0 x1 x2 x3 x4 x5 := by
  unfold aggregate40 wrapped Cert.ReferenceIdeal.Read.val_main_v45 Cert.ReferenceIdeal.Read.val_main_v44 Cert.ReferenceIdeal.Read.val_main_v43
    Cert.ReferenceIdeal.Read.val_main_cst_8 Cert.ReferenceIdeal.Read.val_main_v42 Cert.ReferenceIdeal.Read.val_main_v41
    Cert.ReferenceIdeal.Read.val_main_v40 Cert.ReferenceIdeal.Read.val_main_v39 Cert.ReferenceIdeal.Read.val_main_v38
    Cert.ReferenceIdeal.Read.val_main_c_7 Cert.ReferenceIdeal.Read.val_main_v37 Cert.ReferenceIdeal.Read.val_main_v36
    Cert.ReferenceIdeal.Read.val_main_c_6
  generalize val_main_v35 (F := Ideal) x0 x1 x2 x3 x4 x5 = H
  rfl

/-! ## A reshape of a vector to a keepdims column, or to a one-row matrix, read at an index -/

theorem reshape_col (v : FVec Ideal (⟨1, ![100000]⟩ : Shape) .f32) (h : (⟨1, ![100000]⟩ : Shape).ShapeCasts ⟨2, ![100000, 1]⟩) :
    shapeCast (⟨2, ![100000, 1]⟩ : Shape) v h = col v := by
  funext i
  refine shapeCast_apply v h i (ix1 (i 0)) ?_
  rw [Shape.rowMajor_val_two, Shape.rowMajor_val_one]
  have h1 : (i 1).val < 1 := (i 1).isLt
  show (i 0).val = (i 0).val * 1 + (i 1).val
  omega

theorem reshape_row {N : Nat} (v : FVec Ideal (⟨1, ![N]⟩ : Shape) .f32) (h : (⟨1, ![N]⟩ : Shape).ShapeCasts ⟨2, ![1, N]⟩) :
    shapeCast (⟨2, ![1, N]⟩ : Shape) v h = rowVec v := by
  funext i
  refine shapeCast_apply v h i (ix1 (i 1)) ?_
  rw [Shape.rowMajor_val_two, Shape.rowMajor_val_one]
  have h0 : (i 0).val < 1 := (i 0).isLt
  show (i 1).val = (i 0).val * N + (i 1).val
  have : (i 0).val = 0 := by omega
  rw [this]; omega

/-! ## Each stretch of host operations, from any entry contents `U` -/

section Stretches
variable (U : Valuation τ sig (Elt Ideal))

theorem counts_src : (after hostOps0 U (Proc.devRef .tc main_v3) : FVec Ideal S100000 .f32) = counts (U (Proc.devRef .tc main_arg1)) := by
  dsimp only [hostOps0]
  after_results
  rfl

theorem counts_dst : (after hostOps0 U (Proc.devRef .tc main_v6) : FVec Ideal S100000 .f32) = counts (U (Proc.devRef .tc main_arg2)) := by
  dsimp only [hostOps0]
  after_results
  rfl

theorem one0 : after hostOps0 U (Proc.devRef .tc main_cst_2) = constant (F := Ideal) S_ .f32 0x3F800000#32 := by
  dsimp only [hostOps0]
  after_results

theorem clip0 : (after hostOps0_1 U (Proc.devRef .tc main_v7) : FVec Ideal S100000 .f32)
    = maximumf (F := Ideal) (φ := .f32) (broadcastInDim (α := Ideal .f32) S100000 ![] bcast_S_S100000 (id (α := FVec Ideal S_ .f32) (U (Proc.devRef .tc main_cst_2) : FVec Ideal S_ .f32)))
        (U (Proc.devRef .tc main_v3) : FVec Ideal S100000 .f32) := by
  dsimp only [hostOps0_1]
  after_results
  rfl

theorem rsqrt0 : (after hostOps0_2 U (Proc.devRef .tc main_v8) : FVec Ideal S100000 .f32)
    = Host.rsqrt (F := Ideal) (φ := .f32) (s := S100000) (U (Proc.devRef .tc main_v7) : FVec Ideal S100000 .f32) := by
  dsimp only [hostOps0_2]
  after_results

theorem one1 : after hostOps0_2 U (Proc.devRef .tc main_cst_3) = constant (F := Ideal) S_ .f32 0x3F800000#32 := by
  dsimp only [hostOps0_2]
  after_results

theorem clip1 : (after hostOps0_3 U (Proc.devRef .tc main_v9) : FVec Ideal S100000 .f32)
    = maximumf (F := Ideal) (φ := .f32) (broadcastInDim (α := Ideal .f32) S100000 ![] bcast_S_S100000 (id (α := FVec Ideal S_ .f32) (U (Proc.devRef .tc main_cst_3) : FVec Ideal S_ .f32)))
        (U (Proc.devRef .tc main_v6) : FVec Ideal S100000 .f32) := by
  dsimp only [hostOps0_3]
  after_results
  rfl

theorem reshape_src : after hostOps0_4 U (Proc.devRef .tc main_v11)
    = shapeCast S100000x1 (U (Proc.devRef .tc main_v8)) shapeCasts_S100000_S100000x1 := by
  dsimp only [hostOps0_4]
  after_results
  rfl

theorem reshape_dst : (after hostOps0_4 U (Proc.devRef .tc main_v12) : FVec Ideal S100000x1 .f32)
    = shapeCast S100000x1 (Host.rsqrt (F := Ideal) (φ := .f32) (s := S100000) (U (Proc.devRef .tc main_v9) : FVec Ideal S100000 .f32)) shapeCasts_S100000_S100000x1 := by
  dsimp only [hostOps0_4]
  after_results
  rfl

theorem reshape_bias1 : after hostOps0_4 U (Proc.devRef .tc main_v13)
    = shapeCast S1x128 (U (Proc.devRef .tc main_arg4)) shapeCasts_S128_S1x128 := by
  dsimp only [hostOps0_4]
  after_results
  rfl

theorem reshape_bias2 : after hostOps0_4 U (Proc.devRef .tc main_v14)
    = shapeCast S1x40 (U (Proc.devRef .tc main_arg6)) shapeCasts_S40_S1x40 := by
  dsimp only [hostOps0_4]
  after_results
  rfl

theorem gather1 : (after hostOps1 U (Proc.devRef .tc main_v25) : FVec Ideal S100000x128 .f32)
    = aggregate128 (U (Proc.devRef .tc main_v15)) (U (Proc.devRef .tc main_arg1)) (U (Proc.devRef .tc main_arg2)) := by
  dsimp only [hostOps1]
  after_results
  rfl

theorem gather2 : (after hostOps2 U (Proc.devRef .tc main_v36) : FVec Ideal S100000x40 .f32)
    = aggregate40 (U (Proc.devRef .tc main_v26)) (U (Proc.devRef .tc main_arg1)) (U (Proc.devRef .tc main_arg2)) := by
  dsimp only [hostOps2]
  after_results
  rfl

-- what a stretch does not write it keeps
theorem keep0_arg0 : after hostOps0 U (Proc.devRef .tc main_arg0) = U (Proc.devRef .tc main_arg0) := by
  dsimp only [hostOps0]
  after_results
theorem keep0_arg1 : after hostOps0 U (Proc.devRef .tc main_arg1) = U (Proc.devRef .tc main_arg1) := by
  dsimp only [hostOps0]
  after_results
theorem keep0_arg2 : after hostOps0 U (Proc.devRef .tc main_arg2) = U (Proc.devRef .tc main_arg2) := by
  dsimp only [hostOps0]
  after_results
theorem keep0_arg3 : after hostOps0 U (Proc.devRef .tc main_arg3) = U (Proc.devRef .tc main_arg3) := by
  dsimp only [hostOps0]
  after_results
theorem keep0_arg4 : after hostOps0 U (Proc.devRef .tc main_arg4) = U (Proc.devRef .tc main_arg4) := by
  dsimp only [hostOps0]
  after_results
theorem keep0_arg5 : after hostOps0 U (Proc.devRef .tc main_arg5) = U (Proc.devRef .tc main_arg5) := by
  dsimp only [hostOps0]
  after_results
theorem keep0_arg6 : after hostOps0 U (Proc.devRef .tc main_arg6) = U (Proc.devRef .tc main_arg6) := by
  dsimp only [hostOps0]
  after_results

theorem keep01_arg0 : after hostOps0_1 U (Proc.devRef .tc main_arg0) = U (Proc.devRef .tc main_arg0) := by
  dsimp only [hostOps0_1]
  after_results
theorem keep01_arg1 : after hostOps0_1 U (Proc.devRef .tc main_arg1) = U (Proc.devRef .tc main_arg1) := by
  dsimp only [hostOps0_1]
  after_results
theorem keep01_arg2 : after hostOps0_1 U (Proc.devRef .tc main_arg2) = U (Proc.devRef .tc main_arg2) := by
  dsimp only [hostOps0_1]
  after_results
theorem keep01_arg3 : after hostOps0_1 U (Proc.devRef .tc main_arg3) = U (Proc.devRef .tc main_arg3) := by
  dsimp only [hostOps0_1]
  after_results
theorem keep01_arg4 : after hostOps0_1 U (Proc.devRef .tc main_arg4) = U (Proc.devRef .tc main_arg4) := by
  dsimp only [hostOps0_1]
  after_results
theorem keep01_arg5 : after hostOps0_1 U (Proc.devRef .tc main_arg5) = U (Proc.devRef .tc main_arg5) := by
  dsimp only [hostOps0_1]
  after_results
theorem keep01_arg6 : after hostOps0_1 U (Proc.devRef .tc main_arg6) = U (Proc.devRef .tc main_arg6) := by
  dsimp only [hostOps0_1]
  after_results
theorem keep01_v6 : after hostOps0_1 U (Proc.devRef .tc main_v6) = U (Proc.devRef .tc main_v6) := by
  dsimp only [hostOps0_1]
  after_results

theorem keep02_arg0 : after hostOps0_2 U (Proc.devRef .tc main_arg0) = U (Proc.devRef .tc main_arg0) := by
  dsimp only [hostOps0_2]
  after_results
theorem keep02_arg1 : after hostOps0_2 U (Proc.devRef .tc main_arg1) = U (Proc.devRef .tc main_arg1) := by
  dsimp only [hostOps0_2]
  after_results
theorem keep02_arg2 : after hostOps0_2 U (Proc.devRef .tc main_arg2) = U (Proc.devRef .tc main_arg2) := by
  dsimp only [hostOps0_2]
  after_results
theorem keep02_arg3 : after hostOps0_2 U (Proc.devRef .tc main_arg3) = U (Proc.devRef .tc main_arg3) := by
  dsimp only [hostOps0_2]
  after_results
theorem keep02_arg4 : after hostOps0_2 U (Proc.devRef .tc main_arg4) = U (Proc.devRef .tc main_arg4) := by
  dsimp only [hostOps0_2]
  after_results
theorem keep02_arg5 : after hostOps0_2 U (Proc.devRef .tc main_arg5) = U (Proc.devRef .tc main_arg5) := by
  dsimp only [hostOps0_2]
  after_results
theorem keep02_arg6 : after hostOps0_2 U (Proc.devRef .tc main_arg6) = U (Proc.devRef .tc main_arg6) := by
  dsimp only [hostOps0_2]
  after_results
theorem keep02_v6 : after hostOps0_2 U (Proc.devRef .tc main_v6) = U (Proc.devRef .tc main_v6) := by
  dsimp only [hostOps0_2]
  after_results

theorem keep03_arg0 : after hostOps0_3 U (Proc.devRef .tc main_arg0) = U (Proc.devRef .tc main_arg0) := by
  dsimp only [hostOps0_3]
  after_results
theorem keep03_arg1 : after hostOps0_3 U (Proc.devRef .tc main_arg1) = U (Proc.devRef .tc main_arg1) := by
  dsimp only [hostOps0_3]
  after_results
theorem keep03_arg2 : after hostOps0_3 U (Proc.devRef .tc main_arg2) = U (Proc.devRef .tc main_arg2) := by
  dsimp only [hostOps0_3]
  after_results
theorem keep03_arg3 : after hostOps0_3 U (Proc.devRef .tc main_arg3) = U (Proc.devRef .tc main_arg3) := by
  dsimp only [hostOps0_3]
  after_results
theorem keep03_arg4 : after hostOps0_3 U (Proc.devRef .tc main_arg4) = U (Proc.devRef .tc main_arg4) := by
  dsimp only [hostOps0_3]
  after_results
theorem keep03_arg5 : after hostOps0_3 U (Proc.devRef .tc main_arg5) = U (Proc.devRef .tc main_arg5) := by
  dsimp only [hostOps0_3]
  after_results
theorem keep03_arg6 : after hostOps0_3 U (Proc.devRef .tc main_arg6) = U (Proc.devRef .tc main_arg6) := by
  dsimp only [hostOps0_3]
  after_results
theorem keep03_v8 : after hostOps0_3 U (Proc.devRef .tc main_v8) = U (Proc.devRef .tc main_v8) := by
  dsimp only [hostOps0_3]
  after_results

theorem keep04_arg0 : after hostOps0_4 U (Proc.devRef .tc main_arg0) = U (Proc.devRef .tc main_arg0) := by
  dsimp only [hostOps0_4]
  after_results
theorem keep04_arg1 : after hostOps0_4 U (Proc.devRef .tc main_arg1) = U (Proc.devRef .tc main_arg1) := by
  dsimp only [hostOps0_4]
  after_results
theorem keep04_arg2 : after hostOps0_4 U (Proc.devRef .tc main_arg2) = U (Proc.devRef .tc main_arg2) := by
  dsimp only [hostOps0_4]
  after_results
theorem keep04_arg3 : after hostOps0_4 U (Proc.devRef .tc main_arg3) = U (Proc.devRef .tc main_arg3) := by
  dsimp only [hostOps0_4]
  after_results
theorem keep04_arg5 : after hostOps0_4 U (Proc.devRef .tc main_arg5) = U (Proc.devRef .tc main_arg5) := by
  dsimp only [hostOps0_4]
  after_results
theorem keep04_v8 : after hostOps0_4 U (Proc.devRef .tc main_v8) = U (Proc.devRef .tc main_v8) := by
  dsimp only [hostOps0_4]
  after_results

theorem keep1_arg1 : after hostOps1 U (Proc.devRef .tc main_arg1) = U (Proc.devRef .tc main_arg1) := by
  dsimp only [hostOps1]
  after_results
theorem keep1_arg2 : after hostOps1 U (Proc.devRef .tc main_arg2) = U (Proc.devRef .tc main_arg2) := by
  dsimp only [hostOps1]
  after_results
theorem keep1_arg5 : after hostOps1 U (Proc.devRef .tc main_arg5) = U (Proc.devRef .tc main_arg5) := by
  dsimp only [hostOps1]
  after_results
theorem keep1_v11 : after hostOps1 U (Proc.devRef .tc main_v11) = U (Proc.devRef .tc main_v11) := by
  dsimp only [hostOps1]
  after_results
theorem keep1_v12 : after hostOps1 U (Proc.devRef .tc main_v12) = U (Proc.devRef .tc main_v12) := by
  dsimp only [hostOps1]
  after_results
theorem keep1_v13 : after hostOps1 U (Proc.devRef .tc main_v13) = U (Proc.devRef .tc main_v13) := by
  dsimp only [hostOps1]
  after_results
theorem keep1_v14 : after hostOps1 U (Proc.devRef .tc main_v14) = U (Proc.devRef .tc main_v14) := by
  dsimp only [hostOps1]
  after_results

theorem keep2_v12 : after hostOps2 U (Proc.devRef .tc main_v12) = U (Proc.devRef .tc main_v12) := by
  dsimp only [hostOps2]
  after_results
theorem keep2_v14 : after hostOps2 U (Proc.devRef .tc main_v14) = U (Proc.devRef .tc main_v14) := by
  dsimp only [hostOps2]
  after_results

end Stretches

/-! ## The boundaries: what each operand holds where it is read -/

variable (m : (ℓ : Loc nD τ sig) → Buf (Elt Ideal) ℓ) (ρ : Dev nD → PrngReg)

/-- An argument no stretch before the first pallas_call writes is as launched at the fourth boundary … -/
theorem w4_arg (b : Ref sig .tc) (h0 : ∀ U : Valuation τ sig (Elt Ideal), after hostOps0 U (Proc.devRef .tc b) = U (Proc.devRef .tc b))
    (h1 : ∀ U : Valuation τ sig (Elt Ideal), after hostOps0_1 U (Proc.devRef .tc b) = U (Proc.devRef .tc b))
    (h2 : ∀ U : Valuation τ sig (Elt Ideal), after hostOps0_2 U (Proc.devRef .tc b) = U (Proc.devRef .tc b))
    (h3 : ∀ U : Valuation τ sig (Elt Ideal), after hostOps0_3 U (Proc.devRef .tc b) = U (Proc.devRef .tc b)) (c : Dev nD) :
    W4 m ρ c (Proc.devRef .tc b) = m ((c : Thread nD τ).loc b) :=
  (h3 (W3 m ρ c)).trans ((h2 (W2 m ρ c)).trans ((h1 (W1 m ρ c)).trans (h0 (W0 m ρ c))))

/-- … and at the first pallas_call's entry. -/
theorem w5_arg (b : Ref sig .tc) (h0 : ∀ U : Valuation τ sig (Elt Ideal), after hostOps0 U (Proc.devRef .tc b) = U (Proc.devRef .tc b))
    (h1 : ∀ U : Valuation τ sig (Elt Ideal), after hostOps0_1 U (Proc.devRef .tc b) = U (Proc.devRef .tc b))
    (h2 : ∀ U : Valuation τ sig (Elt Ideal), after hostOps0_2 U (Proc.devRef .tc b) = U (Proc.devRef .tc b))
    (h3 : ∀ U : Valuation τ sig (Elt Ideal), after hostOps0_3 U (Proc.devRef .tc b) = U (Proc.devRef .tc b))
    (h4 : ∀ U : Valuation τ sig (Elt Ideal), after hostOps0_4 U (Proc.devRef .tc b) = U (Proc.devRef .tc b)) (c : Dev nD) :
    W5 m ρ c (Proc.devRef .tc b) = m ((c : Thread nD τ).loc b) :=
  (h4 (W4 m ρ c)).trans (w4_arg m ρ b h0 h1 h2 h3 c)

theorem w5_arg0 (c : Dev nD) : W5 m ρ c (Proc.devRef .tc main_arg0) = m ((c : Thread nD τ).loc main_arg0) := w5_arg m ρ main_arg0 keep0_arg0 keep01_arg0 keep02_arg0 keep03_arg0 keep04_arg0 c
theorem w5_arg1 (c : Dev nD) : W5 m ρ c (Proc.devRef .tc main_arg1) = m ((c : Thread nD τ).loc main_arg1) := w5_arg m ρ main_arg1 keep0_arg1 keep01_arg1 keep02_arg1 keep03_arg1 keep04_arg1 c
theorem w5_arg2 (c : Dev nD) : W5 m ρ c (Proc.devRef .tc main_arg2) = m ((c : Thread nD τ).loc main_arg2) := w5_arg m ρ main_arg2 keep0_arg2 keep01_arg2 keep02_arg2 keep03_arg2 keep04_arg2 c
theorem w5_arg3 (c : Dev nD) : W5 m ρ c (Proc.devRef .tc main_arg3) = m ((c : Thread nD τ).loc main_arg3) := w5_arg m ρ main_arg3 keep0_arg3 keep01_arg3 keep02_arg3 keep03_arg3 keep04_arg3 c
theorem w5_arg5 (c : Dev nD) : W5 m ρ c (Proc.devRef .tc main_arg5) = m ((c : Thread nD τ).loc main_arg5) := w5_arg m ρ main_arg5 keep0_arg5 keep01_arg5 keep02_arg5 keep03_arg5 keep04_arg5 c
theorem w4_arg4 (c : Dev nD) : W4 m ρ c (Proc.devRef .tc main_arg4) = m ((c : Thread nD τ).loc main_arg4) := w4_arg m ρ main_arg4 keep0_arg4 keep01_arg4 keep02_arg4 keep03_arg4 c
theorem w4_arg6 (c : Dev nD) : W4 m ρ c (Proc.devRef .tc main_arg6) = m ((c : Thread nD τ).loc main_arg6) := w4_arg m ρ main_arg6 keep0_arg6 keep01_arg6 keep02_arg6 keep03_arg6 c

/-! ### The source norm's column -/

theorem w1_counts_src (c : Dev nD) : (W1 m ρ c (Proc.devRef .tc main_v3) : FVec Ideal S100000 .f32) = counts (m ((c : Thread nD τ).loc main_arg1)) :=
  counts_src (W0 m ρ c)
theorem w1_one (c : Dev nD) : W1 m ρ c (Proc.devRef .tc main_cst_2) = constant (F := Ideal) S_ .f32 0x3F800000#32 := one0 (W0 m ρ c)
theorem w2_clipped_src (c : Dev nD) : (W2 m ρ c (Proc.devRef .tc main_v7) : FVec Ideal S100000 .f32) = clipped (m ((c : Thread nD τ).loc main_arg1)) := by
  refine (clip0 (W1 m ρ c)).trans ?_
  rw [w1_one m ρ c, w1_counts_src m ρ c]
  rfl
theorem w3_norm_src (c : Dev nD) : (W3 m ρ c (Proc.devRef .tc main_v8) : FVec Ideal S100000 .f32) = degreeNorm (m ((c : Thread nD τ).loc main_arg1)) := by
  refine (rsqrt0 (W2 m ρ c)).trans ?_
  rw [w2_clipped_src m ρ c]
  rfl
theorem w4_norm_src (c : Dev nD) : (W4 m ρ c (Proc.devRef .tc main_v8) : FVec Ideal S100000 .f32) = degreeNorm (m ((c : Thread nD τ).loc main_arg1)) :=
  (keep03_v8 (W3 m ρ c)).trans (w3_norm_src m ρ c)
theorem w5_src_col (c : Dev nD) : (W5 m ρ c (Proc.devRef .tc main_v11) : Mat 100000 1) = col (degreeNorm (m ((c : Thread nD τ).loc main_arg1))) := by
  refine (reshape_src (W4 m ρ c)).trans ?_
  rw [w4_norm_src m ρ c]
  exact reshape_col _ _

/-! ### The destination norm's column -/

theorem w1_counts_dst (c : Dev nD) : (W1 m ρ c (Proc.devRef .tc main_v6) : FVec Ideal S100000 .f32) = counts (m ((c : Thread nD τ).loc main_arg2)) :=
  counts_dst (W0 m ρ c)
theorem w3_counts_dst (c : Dev nD) : (W3 m ρ c (Proc.devRef .tc main_v6) : FVec Ideal S100000 .f32) = counts (m ((c : Thread nD τ).loc main_arg2)) :=
  (keep02_v6 (W2 m ρ c)).trans ((keep01_v6 (W1 m ρ c)).trans (w1_counts_dst m ρ c))
theorem w3_one (c : Dev nD) : W3 m ρ c (Proc.devRef .tc main_cst_3) = constant (F := Ideal) S_ .f32 0x3F800000#32 := one1 (W2 m ρ c)
theorem w4_clipped_dst (c : Dev nD) : (W4 m ρ c (Proc.devRef .tc main_v9) : FVec Ideal S100000 .f32) = clipped (m ((c : Thread nD τ).loc main_arg2)) := by
  refine (clip1 (W3 m ρ c)).trans ?_
  rw [w3_one m ρ c, w3_counts_dst m ρ c]
  rfl
theorem w5_dst_col (c : Dev nD) : (W5 m ρ c (Proc.devRef .tc main_v12) : Mat 100000 1) = col (degreeNorm (m ((c : Thread nD τ).loc main_arg2))) := by
  refine (reshape_dst (W4 m ρ c)).trans ?_
  rw [w4_clipped_dst m ρ c]
  exact reshape_col _ _

/-! ### The bias rows -/

theorem w5_bias1 (c : Dev nD) : (W5 m ρ c (Proc.devRef .tc main_v13) : Mat 1 128) = rowVec (m ((c : Thread nD τ).loc main_arg4)) := by
  refine (reshape_bias1 (W4 m ρ c)).trans ?_
  rw [w4_arg4 m ρ c]
  exact reshape_row _ _
theorem w5_bias2 (c : Dev nD) : (W5 m ρ c (Proc.devRef .tc main_v14) : Mat 1 40) = rowVec (m ((c : Thread nD τ).loc main_arg6)) := by
  refine (reshape_bias2 (W4 m ρ c)).trans ?_
  rw [w4_arg6 m ρ c]
  exact reshape_row _ _

/-! ## The kernel program's values, and the reference's stages -/

/-- Layer 1 before aggregation, of the launch memory. -/
abbrev layer1 (c : Dev nD) : Mat 100000 128 :=
  scaledProduct (m ((c : Thread nD τ).loc main_arg0)) (m ((c : Thread nD τ).loc main_arg3)) (col (degreeNorm (m ((c : Thread nD τ).loc main_arg1))))
/-- Its aggregate. -/
abbrev agg1 (c : Dev nD) : Mat 100000 128 := aggregate128 (layer1 m c) (m ((c : Thread nD τ).loc main_arg1)) (m ((c : Thread nD τ).loc main_arg2))
/-- Layer 2 before aggregation. -/
abbrev layer2 (c : Dev nD) : Mat 100000 40 :=
  scaledProduct (relu (affine (agg1 m c) (col (degreeNorm (m ((c : Thread nD τ).loc main_arg2)))) (rowVec (m ((c : Thread nD τ).loc main_arg4))))) (m ((c : Thread nD τ).loc main_arg5))
    (col (degreeNorm (m ((c : Thread nD τ).loc main_arg1))))
/-- Its aggregate. -/
abbrev agg2 (c : Dev nD) : Mat 100000 40 := aggregate40 (layer2 m c) (m ((c : Thread nD τ).loc main_arg1)) (m ((c : Thread nD τ).loc main_arg2))
/-- The output. -/
abbrev out (c : Dev nD) : Mat 100000 40 := affine (agg2 m c) (col (degreeNorm (m ((c : Thread nD τ).loc main_arg2)))) (rowVec (m ((c : Thread nD τ).loc main_arg6)))

theorem layer1_ref (c : Dev nD) : layer1 m c = val_main_v14 (F := Ideal) (m ((c : Thread nD τ).loc main_arg0)) (m ((c : Thread nD τ).loc main_arg1)) (m ((c : Thread nD τ).loc main_arg3)) := by
  show scaledProduct _ _ (col (degreeNorm (m ((c : Thread nD τ).loc main_arg1)))) = _
  rw [degreeNorm_src]
  exact (Cert.ReferenceIdeal.Stages.transform1 _ _ _).symm

theorem agg1_ref (c : Dev nD) : agg1 m c = val_main_v24 (F := Ideal) (m ((c : Thread nD τ).loc main_arg0)) (m ((c : Thread nD τ).loc main_arg1)) (m ((c : Thread nD τ).loc main_arg2)) (m ((c : Thread nD τ).loc main_arg3)) := by
  show aggregate128 (layer1 m c) _ _ = _
  rw [layer1_ref m c]
  exact aggregate128_ref _ _ _ _

theorem layer2_ref (c : Dev nD) : layer2 m c = val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show scaledProduct (relu (affine (agg1 m c) (col (degreeNorm (m ((c : Thread nD τ).loc main_arg2)))) _)) _ (col (degreeNorm (m ((c : Thread nD τ).loc main_arg1)))) = _
  rw [agg1_ref m c, degreeNorm_src, degreeNorm_dst]
  exact (Cert.ReferenceIdeal.Stages.transform2 _ _ _ _ _ _).symm

theorem agg2_ref (c : Dev nD) : agg2 m c = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show aggregate40 (layer2 m c) _ _ = _
  rw [layer2_ref m c]
  exact aggregate40_ref _ _ _ _ _ _

theorem out_ref (c : Dev nD) : out m c = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show affine (agg2 m c) (col (degreeNorm (m ((c : Thread nD τ).loc main_arg2)))) _ = _
  rw [agg2_ref m c, degreeNorm_dst]
  exact (Cert.ReferenceIdeal.Stages.output _ _ _ _ _ _ _).symm

/-! ### After the first pallas_call -/

theorem w6_layer1 (c : Dev nD) : (W6 m ρ c (Proc.devRef .tc main_v15) : Mat 100000 128) = layer1 m c := by
  refine (W6_arr m ρ c 3).trans ((Layer1.final (V5 m ρ) c).trans ?_)
  rw [show Layer1.feats (V5 m ρ) c = m ((c : Thread nD τ).loc main_arg0) from w5_arg0 m ρ c, show Layer1.weights (V5 m ρ) c = m ((c : Thread nD τ).loc main_arg3) from w5_arg3 m ρ c,
    show Layer1.srcNorm (V5 m ρ) c = _ from w5_src_col m ρ c]

theorem w6_arg1 (c : Dev nD) : W6 m ρ c (Proc.devRef .tc main_arg1) = m ((c : Thread nD τ).loc main_arg1) := (W6_of_ne m ρ c main_arg1 (by decide)).trans (w5_arg1 m ρ c)
theorem w6_arg2 (c : Dev nD) : W6 m ρ c (Proc.devRef .tc main_arg2) = m ((c : Thread nD τ).loc main_arg2) := (W6_of_ne m ρ c main_arg2 (by decide)).trans (w5_arg2 m ρ c)
theorem w6_arg5 (c : Dev nD) : W6 m ρ c (Proc.devRef .tc main_arg5) = m ((c : Thread nD τ).loc main_arg5) := (W6_of_ne m ρ c main_arg5 (by decide)).trans (w5_arg5 m ρ c)
theorem w6_src_col (c : Dev nD) : (W6 m ρ c (Proc.devRef .tc main_v11) : Mat 100000 1) = col (degreeNorm (m ((c : Thread nD τ).loc main_arg1))) :=
  (W6_arr m ρ c 2).trans (((dat0 (V5 m ρ) c).arrAt_in 2 rfl _).trans ((A_eq0 (V5 m ρ) c 2).trans (w5_src_col m ρ c)))
theorem w6_dst_col (c : Dev nD) : (W6 m ρ c (Proc.devRef .tc main_v12) : Mat 100000 1) = col (degreeNorm (m ((c : Thread nD τ).loc main_arg2))) :=
  (W6_of_ne m ρ c main_v12 (by decide)).trans (w5_dst_col m ρ c)
theorem w6_bias1 (c : Dev nD) : (W6 m ρ c (Proc.devRef .tc main_v13) : Mat 1 128) = rowVec (m ((c : Thread nD τ).loc main_arg4)) :=
  (W6_of_ne m ρ c main_v13 (by decide)).trans (w5_bias1 m ρ c)
theorem w6_bias2 (c : Dev nD) : (W6 m ρ c (Proc.devRef .tc main_v14) : Mat 1 40) = rowVec (m ((c : Thread nD τ).loc main_arg6)) :=
  (W6_of_ne m ρ c main_v14 (by decide)).trans (w5_bias2 m ρ c)

/-! ### At the second pallas_call's entry -/

theorem w7_agg1 (c : Dev nD) : (W7 m ρ c (Proc.devRef .tc main_v25) : Mat 100000 128) = agg1 m c := by
  refine (gather1 (W6 m ρ c)).trans ?_
  rw [w6_layer1 m ρ c, w6_arg1 m ρ c, w6_arg2 m ρ c]
theorem w7_arg1 (c : Dev nD) : W7 m ρ c (Proc.devRef .tc main_arg1) = m ((c : Thread nD τ).loc main_arg1) := (keep1_arg1 (W6 m ρ c)).trans (w6_arg1 m ρ c)
theorem w7_arg2 (c : Dev nD) : W7 m ρ c (Proc.devRef .tc main_arg2) = m ((c : Thread nD τ).loc main_arg2) := (keep1_arg2 (W6 m ρ c)).trans (w6_arg2 m ρ c)
theorem w7_arg5 (c : Dev nD) : W7 m ρ c (Proc.devRef .tc main_arg5) = m ((c : Thread nD τ).loc main_arg5) := (keep1_arg5 (W6 m ρ c)).trans (w6_arg5 m ρ c)
theorem w7_src_col (c : Dev nD) : (W7 m ρ c (Proc.devRef .tc main_v11) : Mat 100000 1) = col (degreeNorm (m ((c : Thread nD τ).loc main_arg1))) :=
  (keep1_v11 (W6 m ρ c)).trans (w6_src_col m ρ c)
theorem w7_dst_col (c : Dev nD) : (W7 m ρ c (Proc.devRef .tc main_v12) : Mat 100000 1) = col (degreeNorm (m ((c : Thread nD τ).loc main_arg2))) :=
  (keep1_v12 (W6 m ρ c)).trans (w6_dst_col m ρ c)
theorem w7_bias1 (c : Dev nD) : (W7 m ρ c (Proc.devRef .tc main_v13) : Mat 1 128) = rowVec (m ((c : Thread nD τ).loc main_arg4)) :=
  (keep1_v13 (W6 m ρ c)).trans (w6_bias1 m ρ c)
theorem w7_bias2 (c : Dev nD) : (W7 m ρ c (Proc.devRef .tc main_v14) : Mat 1 40) = rowVec (m ((c : Thread nD τ).loc main_arg6)) :=
  (keep1_v14 (W6 m ρ c)).trans (w6_bias2 m ρ c)

/-! ### After the second pallas_call -/

theorem w8_layer2 (c : Dev nD) : (W8 m ρ c (Proc.devRef .tc main_v26) : Mat 100000 40) = layer2 m c := by
  refine (W8_arr m ρ c 5).trans ((Layer2.final (V7 m ρ) c).trans ?_)
  show scaledProduct (relu (affine (Layer2.agg (V7 m ρ) c) (Layer2.dstNorm (V7 m ρ) c) (Layer2.bias (V7 m ρ) c))) (Layer2.weights (V7 m ρ) c)
    (Layer2.srcNorm (V7 m ρ) c) = _
  rw [show Layer2.agg (V7 m ρ) c = _ from w7_agg1 m ρ c, show Layer2.dstNorm (V7 m ρ) c = _ from w7_dst_col m ρ c,
    show Layer2.bias (V7 m ρ) c = _ from w7_bias1 m ρ c, show Layer2.weights (V7 m ρ) c = m ((c : Thread nD τ).loc main_arg5) from w7_arg5 m ρ c,
    show Layer2.srcNorm (V7 m ρ) c = _ from w7_src_col m ρ c]

theorem w8_arg1 (c : Dev nD) : W8 m ρ c (Proc.devRef .tc main_arg1) = m ((c : Thread nD τ).loc main_arg1) := (W8_of_ne m ρ c main_arg1 (by decide)).trans (w7_arg1 m ρ c)
theorem w8_arg2 (c : Dev nD) : W8 m ρ c (Proc.devRef .tc main_arg2) = m ((c : Thread nD τ).loc main_arg2) := (W8_of_ne m ρ c main_arg2 (by decide)).trans (w7_arg2 m ρ c)
theorem w8_dst_col (c : Dev nD) : (W8 m ρ c (Proc.devRef .tc main_v12) : Mat 100000 1) = col (degreeNorm (m ((c : Thread nD τ).loc main_arg2))) :=
  (W8_arr m ρ c 1).trans (((dat1 (V7 m ρ) c).arrAt_in 1 rfl _).trans ((A_eq1 (V7 m ρ) c 1).trans (w7_dst_col m ρ c)))
theorem w8_bias2 (c : Dev nD) : (W8 m ρ c (Proc.devRef .tc main_v14) : Mat 1 40) = rowVec (m ((c : Thread nD τ).loc main_arg6)) :=
  (W8_of_ne m ρ c main_v14 (by decide)).trans (w7_bias2 m ρ c)

/-! ### At the third pallas_call's entry, and after it -/

theorem w9_agg2 (c : Dev nD) : (W9 m ρ c (Proc.devRef .tc main_v36) : Mat 100000 40) = agg2 m c := by
  refine (gather2 (W8 m ρ c)).trans ?_
  rw [w8_layer2 m ρ c, w8_arg1 m ρ c, w8_arg2 m ρ c]
theorem w9_dst_col (c : Dev nD) : (W9 m ρ c (Proc.devRef .tc main_v12) : Mat 100000 1) = col (degreeNorm (m ((c : Thread nD τ).loc main_arg2))) :=
  (keep2_v12 (W8 m ρ c)).trans (w8_dst_col m ρ c)
theorem w9_bias2 (c : Dev nD) : (W9 m ρ c (Proc.devRef .tc main_v14) : Mat 1 40) = rowVec (m ((c : Thread nD τ).loc main_arg6)) :=
  (keep2_v14 (W8 m ρ c)).trans (w8_bias2 m ρ c)

theorem w10_out (c : Dev nD) : (W10 m ρ c (Proc.devRef .tc main_v37) : Mat 100000 40) = out m c := by
  refine (W10_arr m ρ c 3).trans ((Output.final (V9 m ρ) c).trans ?_)
  rw [show Output.agg (V9 m ρ) c = _ from w9_agg2 m ρ c, show Output.dstNorm (V9 m ρ) c = _ from w9_dst_col m ρ c,
    show Output.bias (V9 m ρ) c = _ from w9_bias2 m ρ c]

/-- The kernel program's result buffer ends at the reference's last stage of the launch memory's arguments. -/
theorem result_ref (c : Dev nD) : W10 m ρ c (Proc.devRef .tc main_v37)
    = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (w10_out m ρ c).trans (out_ref m c)

end Cert.KernelIdeal.Bounds

end
-- ==== Proof.lean ====
/-
  A two-layer graph convolution (degree-normalised on both sides) over 100000 nodes and 1600000 edges: the kernel
  program's three pallas_calls among host gathers and scatters, against the reference's host program.

  Both programs compute, with nₛ and n_d the degree norms of the source and destination index vectors (one over the
  square root of each node's count among the indices, the count cut below at one),
      H₁ = (X·W₁) scaled by nₛ per row,      A₁ = the rows of H₁ named by the sources, summed at the destinations,
      H₂ = (max(A₁ scaled by n_d per row + b₁, 0)·W₂) scaled by nₛ per row,      A₂ likewise from H₂,
      out = A₂ scaled by n_d per row + b₂.
  The kernel program computes H₁, H₂ and out in pallas_calls over 25 blocks of 4000 rows (its matrix products into zero
  accumulators, the change of float format in front of them the identity on extended reals) and everything else with
  the host operations the reference uses; the reference computes the products as whole `dot_general`s. Entry by entry
  the two are the same sums of the same products, so no law of the extended reals beyond reading both sides at an
  index is needed, and the precondition is never opened.

  The frames of the two kernel programs are the generated ones; the reference's frame is its generated run with the
  result dropped; nothing was rewritten in idealizing the kernel. For the value claim the kernel program's run is the
  generated launch called once more with the result buffer named (`ValueRun`), and that buffer's contents are followed
  back through the pallas_calls (`Layer1`, `Layer2`, `Output`) and the host stretches (`HostSide`) to the reference's
  last stage (`RefStages` over the generated one-operation readings).
-/
import proofs.«138191_j30992484008171_1_alg».proof.Defs
import proofs.«138191_j30992484008171_1_alg».proof.Proof.Gen.Kernel
import proofs.«138191_j30992484008171_1_alg».proof.Proof.Gen.Kernel.Skeleton
import proofs.«138191_j30992484008171_1_alg».proof.Proof.Gen.Kernel.Launch
import proofs.«138191_j30992484008171_1_alg».proof.Proof.Gen.Kernel.Points
import proofs.«138191_j30992484008171_1_alg».proof.Proof.Gen.Kernel.Frame
import proofs.«138191_j30992484008171_1_alg».proof.Proof.Gen.KernelIdeal
import proofs.«138191_j30992484008171_1_alg».proof.Proof.Gen.KernelIdeal.Skeleton
import proofs.«138191_j30992484008171_1_alg».proof.Proof.Gen.KernelIdeal.Launch
import proofs.«138191_j30992484008171_1_alg».proof.Proof.Gen.KernelIdeal.Points
import proofs.«138191_j30992484008171_1_alg».proof.Proof.Gen.KernelIdeal.Frame
import proofs.«138191_j30992484008171_1_alg».proof.Proof.Gen.ReferenceIdeal
import proofs.«138191_j30992484008171_1_alg».proof.Proof.Gen.ReferenceIdeal.Run
import proofs.«138191_j30992484008171_1_alg».proof.Proof.Gen.ReferenceIdeal.Read
import proofs.«138191_j30992484008171_1_alg».proof.Proof.Gen.Pre_finite_inputs
import proofs.«138191_j30992484008171_1_alg».proof.Proof.ValueRun
import proofs.«138191_j30992484008171_1_alg».proof.Proof.HostSide
import Idealize.ShloMosaic.Adequacy
import Idealize.ShloMosaic.Init

noncomputable section

namespace Cert.Proof

open Idealize.ShloMosaic Idealize.ShloMosaic.TcCoe Idealize.SL.Sem

/-- The kernel program runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Idealizing the kernel rewrote no operation. -/
theorem preserves : Cert.preserves_Kernel_KernelIdeal := trivial

/-- From memories agreeing on the arguments both programs end with the same result array: the kernel program's result
    buffer holds the reference's last stage of the kernel's arguments, the reference's holds it of its own, and the
    arguments agree. -/
theorem algebraic : Cert.algebraic_KernelIdeal_ReferenceIdeal := by
  intro m ρ m' ρ' _ hagree
  refine ⟨fun c => Cert.KernelIdeal.Gen.W10 m ρ c (Proc.devRef .tc Cert.KernelIdeal.main_v37), Cert.KernelIdeal.Gen.run_named m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, (hagree c).1, (hagree c).2.1, (hagree c).2.2.1, (hagree c).2.2.2.1,
    (hagree c).2.2.2.2.1, (hagree c).2.2.2.2.2.1, (hagree c).2.2.2.2.2.2]
  exact (Cert.KernelIdeal.Bounds.result_ref m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
